-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x256x16 : Shape := ⟨3, ![4096, 256, 16]⟩
abbrev S4096x256 : Shape := ⟨2, ![4096, 256]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : IVec S4096x256x16 32) (main_arg2 : FVec F S4096x256 .f32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x256 .f32 := Host.absf main_arg2
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x256x16 : Shape := ⟨3, ![4096, 256, 16]⟩
abbrev S4096x256 : Shape := ⟨2, ![4096, 256]⟩
abbrev S4096 : Shape := ⟨1, ![4096]⟩
abbrev S16 : Shape := ⟨1, ![16]⟩
abbrev S8192x4096 : Shape := ⟨2, ![8192, 4096]⟩
abbrev S_ : Shape := ⟨0, ![]⟩
abbrev S4096x256x16x1 : Shape := ⟨4, ![4096, 256, 16, 1]⟩
abbrev S4096x256x1 : Shape := ⟨3, ![4096, 256, 1]⟩
abbrev S4096x4096 : Shape := ⟨2, ![4096, 4096]⟩
abbrev S2048x512 : Shape := ⟨2, ![2048, 512]⟩
abbrev S1024x512 : Shape := ⟨2, ![1024, 512]⟩
abbrev S1024 : Shape := ⟨1, ![1024]⟩
abbrev S2048x1024 : Shape := ⟨2, ![2048, 1024]⟩
abbrev S1x1024 : Shape := ⟨2, ![1, 1024]⟩

abbrev nBuf : Space → Nat
  | .hbm => 31
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x256x16, .i32⟩
  | .hbm, ⟨2, _⟩ => ⟨S4096x256, .f32⟩
  | .hbm, ⟨3, _⟩ => ⟨S4096, .f32⟩
  | .hbm, ⟨4, _⟩ => ⟨S16, .f32⟩
  | .hbm, ⟨5, _⟩ => ⟨S8192x4096, .f32⟩
  | .hbm, ⟨6, _⟩ => ⟨S8192x4096, .bf16⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S4096x256x16, .i32⟩
  | .hbm, ⟨11, _⟩ => ⟨S4096x256x16, .i32⟩
  | .hbm, ⟨12, _⟩ => ⟨S_, .i32⟩
  | .hbm, ⟨13, _⟩ => ⟨S4096x256x16, .i32⟩
  | .hbm, ⟨14, _⟩ => ⟨S4096x256x16, .i32⟩
  | .hbm, ⟨15, _⟩ => ⟨S_, .i32⟩
  | .hbm, ⟨16, _⟩ => ⟨S4096x256x16, .i32⟩
  | .hbm, ⟨17, _⟩ => ⟨S4096x256x16, .i1⟩
  | .hbm, ⟨18, _⟩ => ⟨S_, .i32⟩
  | .hbm, ⟨19, _⟩ => ⟨S4096x256x16, .i32⟩
  | .hbm, ⟨20, _⟩ => ⟨S4096x256x16, .i32⟩
  | .hbm, ⟨21, _⟩ => ⟨S4096x256x16, .i32⟩
  | .hbm, ⟨22, _⟩ => ⟨S4096x256x16x1, .i32⟩
  | .hbm, ⟨23, _⟩ => ⟨S4096x256x16, .f32⟩
  | .hbm, ⟨24, _⟩ => ⟨S4096x256x1, .f32⟩
  | .hbm, ⟨25, _⟩ => ⟨S4096x256x16, .f32⟩
  | .hbm, ⟨26, _⟩ => ⟨S4096x256x16, .f32⟩
  | .hbm, ⟨27, _⟩ => ⟨S4096x4096, .f32⟩
  | .hbm, ⟨28, _⟩ => ⟨S4096x4096, .bf16⟩
  | .hbm, ⟨29, _⟩ => ⟨S8192x4096, .f32⟩
  | .hbm, ⟨30, _⟩ => ⟨S4x2048x4096, .f32⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S1024x512, .bf16⟩
  | .local _ .vmem, ⟨4, _⟩ => ⟨S1024, .f32⟩
  | .local _ .vmem, ⟨5, _⟩ => ⟨S1024, .f32⟩
  | .local _ .vmem, ⟨6, _⟩ => ⟨S2048x1024, .f32⟩
  | .local _ .vmem, ⟨7, _⟩ => ⟨S2048x1024, .f32⟩
  | .local _ .vmem, ⟨8, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v2 : Ref sig .tc := ⟨.hbm, 14, rfl⟩
abbrev main_c_1 : Ref sig .tc := ⟨.hbm, 15, rfl⟩
abbrev main_v3 : Ref sig .tc := ⟨.hbm, 16, rfl⟩
abbrev main_v4 : Ref sig .tc := ⟨.hbm, 17, rfl⟩
abbrev main_c_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x2048x4096_S8192x4096 : S4x2048x4096.ShapeCasts S8192x4096
  bitsLt_bf16_f32 : FTy.bits .bf16 < FTy.bits .f32
  bcast_S_S4096x256x16 : S_.BroadcastsInDim S4096x256x16 (![] : Fin 0 → Fin S4096x256x16.rank)
  bcast_S4096x256x16_S4096x256x16x1_0_1_2 : S4096x256x16.BroadcastsInDim S4096x256x16x1 (![0, 1, 2] : Fin 3 → Fin S4096x256x16x1.rank)
  bcast_S4096x256_S4096x256x1_0_1 : S4096x256.BroadcastsInDim S4096x256x1 (![0, 1] : Fin 2 → Fin S4096x256x1.rank)
  bcast_S4096x256x1_S4096x256x16_0_1_2 : S4096x256x1.BroadcastsInDim S4096x256x16 (![0, 1, 2] : Fin 3 → Fin S4096x256x16.rank)
  shapeCasts_S4096x256x16_S4096x4096 : S4096x256x16.ShapeCasts S4096x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S2048x1024 : S1x1024.Broadcasts S2048x1024
  shapeCasts_S8192x4096_S4x2048x4096 : S8192x4096.ShapeCasts S4x2048x4096
  gather_S16_S4096x256x16x1_S4096x256x16_n_0_n_n_0_3_1_wf : GatherDims.WF S16 S4096x256x16x1 S4096x256x16 [] [0] [] [0] [] 3 ![1]
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .bf16 = 32 ∨ (Rect.block (s := S8192x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S4096.size a
  hwx0_2 : ∀ i : grid0.Coords, EltTy.bits .f32 = 32 ∨ (Rect.block (s := S4096) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x4096.size a
  hwx0_3 : ∀ i : grid0.Coords, EltTy.bits .f32 = 32 ∨ (Rect.block (s := S8192x4096) S2048x1024.size (cc0_transform_3 i) (hinb0_3 i)).WholeWords (EltTy.packing .f32)

variable [Facts₀]

def gather_S16_S4096x256x16x1_S4096x256x16_n_0_n_n_0_3_1 : GatherDims S16 S4096x256x16x1 S4096x256x16 where
  offsetDims := []
  collapsedSliceDims := [0]
  operandBatchingDims := []
  startIndicesBatchingDims := []
  startIndexMap := [0]
  indexVectorDim := 3
  sliceSizes := ![1]
  wf := gather_S16_S4096x256x16x1_S4096x256x16_n_0_n_n_0_3_1_wf
def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v1) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x256x16 : Shape := ⟨3, ![4096, 256, 16]⟩
abbrev S4096x256 : Shape := ⟨2, ![4096, 256]⟩
abbrev S4096 : Shape := ⟨1, ![4096]⟩
abbrev S16 : Shape := ⟨1, ![16]⟩
abbrev S_ : Shape := ⟨0, ![]⟩
abbrev S4096x256x16x1 : Shape := ⟨4, ![4096, 256, 16, 1]⟩
abbrev S4096x256x1 : Shape := ⟨3, ![4096, 256, 1]⟩
abbrev S4096x4096 : Shape := ⟨2, ![4096, 4096]⟩
abbrev S1x1x4096 : Shape := ⟨3, ![1, 1, 4096]⟩

abbrev nBuf : Space → Nat
  | .hbm => 30
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x256x16, .i32⟩
  | .hbm, ⟨2, _⟩ => ⟨S4096x256, .f32⟩
  | .hbm, ⟨3, _⟩ => ⟨S4096, .f32⟩
  | .hbm, ⟨4, _⟩ => ⟨S16, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S4096x256x16, .i32⟩
  | .hbm, ⟨9, _⟩ => ⟨S4096x256x16, .i32⟩
  | .hbm, ⟨10, _⟩ => ⟨S_, .i32⟩
  | .hbm, ⟨11, _⟩ => ⟨S4096x256x16, .i32⟩
  | .hbm, ⟨12, _⟩ => ⟨S4096x256x16, .i32⟩
  | .hbm, ⟨13, _⟩ => ⟨S_, .i32⟩
  | .hbm, ⟨14, _⟩ => ⟨S4096x256x16, .i32⟩
  | .hbm, ⟨15, _⟩ => ⟨S4096x256x16, .i1⟩
  | .hbm, ⟨16, _⟩ => ⟨S_, .i32⟩
  | .hbm, ⟨17, _⟩ => ⟨S4096x256x16, .i32⟩
  | .hbm, ⟨18, _⟩ => ⟨S4096x256x16, .i32⟩
  | .hbm, ⟨19, _⟩ => ⟨S4096x256x16, .i32⟩
  | .hbm, ⟨20, _⟩ => ⟨S4096x256x16x1, .i32⟩
  | .hbm, ⟨21, _⟩ => ⟨S4096x256x16, .f32⟩
  | .hbm, ⟨22, _⟩ => ⟨S4096x256x1, .f32⟩
  | .hbm, ⟨23, _⟩ => ⟨S4096x256x16, .f32⟩
  | .hbm, ⟨24, _⟩ => ⟨S4096x256x16, .f32⟩
  | .hbm, ⟨25, _⟩ => ⟨S4096x4096, .f32⟩
  | .hbm, ⟨26, _⟩ => ⟨S4x2048x4096, .f32⟩
  | .hbm, ⟨27, _⟩ => ⟨S1x1x4096, .f32⟩
  | .hbm, ⟨28, _⟩ => ⟨S4x2048x4096, .f32⟩
  | .hbm, ⟨29, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_c_1 : Ref sig .tc := ⟨.hbm, 13, rfl⟩
abbrev main_v1 : Ref sig .tc := ⟨.hbm, 14, rfl⟩
abbrev main_v2 : Ref sig .tc := ⟨.hbm, 15, rfl⟩
abbrev main_c_2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩

abbrev nD : Nat := 1
abbrev τ : Topo := Topo.v7x

variable {F : FTy → Type} [FloatOps F]

class Facts₀ : Prop where
  bcast_S_S4096x256x16 : S_.BroadcastsInDim S4096x256x16 (![] : Fin 0 → Fin S4096x256x16.rank)
  bcast_S4096x256x16_S4096x256x16x1_0_1_2 : S4096x256x16.BroadcastsInDim S4096x256x16x1 (![0, 1, 2] : Fin 3 → Fin S4096x256x16x1.rank)
  bcast_S4096x256_S4096x256x1_0_1 : S4096x256.BroadcastsInDim S4096x256x1 (![0, 1] : Fin 2 → Fin S4096x256x1.rank)
  bcast_S4096x256x1_S4096x256x16_0_1_2 : S4096x256x1.BroadcastsInDim S4096x256x16 (![0, 1, 2] : Fin 3 → Fin S4096x256x16.rank)
  shapeCasts_S4096x256x16_S4096x4096 : S4096x256x16.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S16_S4096x256x16x1_S4096x256x16_n_0_n_n_0_3_1_wf : GatherDims.WF S16 S4096x256x16x1 S4096x256x16 [] [0] [] [0] [] 3 ![1]
  dot_S4x2048x4096_S4096x4096_S4x2048x4096_2_1_01_0_n_n_wf : DotDims.WF S4x2048x4096 S4096x4096 S4x2048x4096 [2] [1] [0, 1] [0] [] []

variable [Facts₀]

def gather_S16_S4096x256x16x1_S4096x256x16_n_0_n_n_0_3_1 : GatherDims S16 S4096x256x16x1 S4096x256x16 where
  offsetDims := []
  collapsedSliceDims := [0]
  operandBatchingDims := []
  startIndicesBatchingDims := []
  startIndexMap := [0]
  indexVectorDim := 3
  sliceSizes := ![1]
  wf := gather_S16_S4096x256x16x1_S4096x256x16_n_0_n_n_0_3_1_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.KPieces.lean ====
/-
  What one run of the kernel body leaves, case by case, as the body's stored values. At the first block of a
  row of blocks the accumulator is reset and then takes the first block product; at the others it takes its
  old contents plus the block product; at the last block, besides, the output block is the new accumulator
  plus the bias. Each buffer is stored whole, so what it holds is the value of its last store, and a load after
  a store reads that store's value.
-/
import proofs.«113631_j81003083203670_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl
theorem hz1 : (![0] : Fin 1 → Nat) = fun _ => 0 := funext fun a => by fin_cases a; rfl

/-- First block of a row of blocks: the accumulator ends at the reset value plus the block product. -/
theorem acc_first (c : Dev nD) (i : grid0.Coords) (a3 : Memref sig .tc .vmem S2048x512 .bf16) (h3 : a3.IsWhole) (a4 : Memref sig .tc .vmem S1024x512 .bf16) (h4 : a4.IsWhole) (a5 : Memref sig .tc .vmem S1024 .f32) (h5 : a5.IsWhole) (a6 : Memref sig .tc .vmem S2048x1024 .f32) (h6 : a6.IsWhole) (a7 : Memref sig .tc .vmem S2048x1024 .f32) (h7 : a7.IsWhole) (hc0 : cond0_0 i) (hc1 : ¬cond0_1 i)
    (x0 : Vec F S2048x512 .bf16) (x1 : Vec F S1024x512 .bf16) (x2 : Vec F S1024 .f32) :
    sout0_A_0 c i a3 h3 a4 h4 a5 h5 a6 h6 a7 h7 hc0 hc1 x0 x1 x2 = k0_pay2 (k0_pay1 (F := F)) x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S2048x1024) hz, View.readCov_unit_zero (S := S2048x1024) _ hz]
  simp only [View.readAt_eq_ld, h3.read_unread, h4.read_unread, View.ld_unit_zero (S := S2048x512) hz,
    View.ld_unit_zero (S := S1024x512) hz]

/-- A middle block: the accumulator ends at its old contents plus the block product. -/
theorem acc_middle (c : Dev nD) (i : grid0.Coords) (a3 : Memref sig .tc .vmem S2048x512 .bf16) (h3 : a3.IsWhole) (a4 : Memref sig .tc .vmem S1024x512 .bf16) (h4 : a4.IsWhole) (a5 : Memref sig .tc .vmem S1024 .f32) (h5 : a5.IsWhole) (a6 : Memref sig .tc .vmem S2048x1024 .f32) (h6 : a6.IsWhole) (a7 : Memref sig .tc .vmem S2048x1024 .f32) (h7 : a7.IsWhole) (hc0 : ¬cond0_0 i) (hc1 : ¬cond0_1 i)
    (x0 : Vec F S2048x512 .bf16) (x1 : Vec F S1024x512 .bf16) (x2 : Vec F S1024 .f32) (xs0 : Vec F S2048x1024 .f32) :
    sout0_B_0 c i a3 h3 a4 h4 a5 h5 a6 h6 a7 h7 hc0 hc1 x0 x1 x2 xs0 = k0_pay2 xs0 x0 x1 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero hz]
  simp only [View.readAt_eq_ld, h3.read_unread, h4.read_unread, h7.read_unread, View.ld_unit_zero (S := S2048x1024) hz,
    View.ld_unit_zero (S := S2048x512) hz, View.ld_unit_zero (S := S1024x512) hz]

/-- The last block: the accumulator likewise. -/
theorem acc_last (c : Dev nD) (i : grid0.Coords) (a3 : Memref sig .tc .vmem S2048x512 .bf16) (h3 : a3.IsWhole) (a4 : Memref sig .tc .vmem S1024x512 .bf16) (h4 : a4.IsWhole) (a5 : Memref sig .tc .vmem S1024 .f32) (h5 : a5.IsWhole) (a6 : Memref sig .tc .vmem S2048x1024 .f32) (h6 : a6.IsWhole) (a7 : Memref sig .tc .vmem S2048x1024 .f32) (h7 : a7.IsWhole) (hc0 : ¬cond0_0 i) (hc1 : cond0_1 i)
    (x0 : Vec F S2048x512 .bf16) (x1 : Vec F S1024x512 .bf16) (x2 : Vec F S1024 .f32) (xs0 : Vec F S2048x1024 .f32) :
    sout0_C_0 c i a3 h3 a4 h4 a5 h5 a6 h6 a7 h7 hc0 hc1 x0 x1 x2 xs0 = k0_pay2 xs0 x0 x1 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h7.read_unread, View.ld_unit_zero (S := S2048x1024) hz,
    View.ld_unit_zero (S := S2048x512) hz, View.ld_unit_zero (S := S1024x512) hz]

/-- The last block: the output block is the new accumulator plus the bias block. -/
theorem out_last (c : Dev nD) (i : grid0.Coords) (a3 : Memref sig .tc .vmem S2048x512 .bf16) (h3 : a3.IsWhole) (a4 : Memref sig .tc .vmem S1024x512 .bf16) (h4 : a4.IsWhole) (a5 : Memref sig .tc .vmem S1024 .f32) (h5 : a5.IsWhole) (a6 : Memref sig .tc .vmem S2048x1024 .f32) (h6 : a6.IsWhole) (a7 : Memref sig .tc .vmem S2048x1024 .f32) (h7 : a7.IsWhole) (hc0 : ¬cond0_0 i) (hc1 : cond0_1 i)
    (x0 : Vec F S2048x512 .bf16) (x1 : Vec F S1024x512 .bf16) (x2 : Vec F S1024 .f32) (xs0 : Vec F S2048x1024 .f32) :
    out0_C_3 c i a3 h3 a4 h4 a5 h5 a6 h6 a7 h7 hc0 hc1 x0 x1 x2 xs0 = k0_pay3 (k0_pay2 xs0 x0 x1) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz]
  simp only [View.readCov_unit_zero (S := S2048x1024) _ hz, View.readAt_eq_ld, h3.read_unread, h4.read_unread, h5.read_unread,
    h7.read_unread, View.ld_unit_zero (S := S2048x1024) hz, View.ld_unit_zero (S := S2048x512) hz,
    View.ld_unit_zero (S := S1024x512) hz, View.ld_unit_zero (S := S1024) hz1]

end Cert.KernelIdeal.Pieces

end
-- ==== Proof.KPayload.lean ====
/-
  The three values the kernel body stores, read at one entry, on the extended reals. The reset value is zero.
  The accumulator's new value at (p, q) is its old value there plus the product of row p of the input block
  with row q of the weight block (both blocks have the contracted axis last, 512 long). The value written out
  at the last block is the accumulator at (p, q) plus the bias at q.
-/
import proofs.«113631_j81003083203670_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The block product's operand indices, axis by axis -/

theorem lhs_0 (i : S2048x1024.Idx) (q : dot_S2048x512_S1024x512_S2048x1024_1_1_0_0_n_n.contr.Idx) :
    (dot_S2048x512_S1024x512_S2048x1024_1_1_0_0_n_n.lhsIdx i q 0).val = (i 0).val := by
  unfold DotDims.lhsIdx
  rw [dif_neg (show ¬(0 : Fin S2048x512.rank) ∈ dot_S2048x512_S1024x512_S2048x1024_1_1_0_0_n_n.lhsBatch by decide), dif_pos (show (0 : Fin S2048x512.rank) ∈ dot_S2048x512_S1024x512_S2048x1024_1_1_0_0_n_n.lhsNonContracting by decide)]
  rfl

theorem lhs_1 (i : S2048x1024.Idx) (q : dot_S2048x512_S1024x512_S2048x1024_1_1_0_0_n_n.contr.Idx) :
    (dot_S2048x512_S1024x512_S2048x1024_1_1_0_0_n_n.lhsIdx i q 1).val = (q ⟨0, by decide⟩).val :=
  dot_S2048x512_S1024x512_S2048x1024_1_1_0_0_n_n.lhsIdx_val_of_single rfl i q

theorem rhs_0 (i : S2048x1024.Idx) (q : dot_S2048x512_S1024x512_S2048x1024_1_1_0_0_n_n.contr.Idx) :
    (dot_S2048x512_S1024x512_S2048x1024_1_1_0_0_n_n.rhsIdx i q 0).val = (i 1).val := by
  unfold DotDims.rhsIdx
  rw [dif_neg (show ¬(0 : Fin S1024x512.rank) ∈ dot_S2048x512_S1024x512_S2048x1024_1_1_0_0_n_n.rhsBatch by decide), dif_pos (show (0 : Fin S1024x512.rank) ∈ dot_S2048x512_S1024x512_S2048x1024_1_1_0_0_n_n.rhsNonContracting by decide)]
  rfl

theorem rhs_1 (i : S2048x1024.Idx) (q : dot_S2048x512_S1024x512_S2048x1024_1_1_0_0_n_n.contr.Idx) :
    (dot_S2048x512_S1024x512_S2048x1024_1_1_0_0_n_n.rhsIdx i q 1).val = (q ⟨0, by decide⟩).val :=
  dot_S2048x512_S1024x512_S2048x1024_1_1_0_0_n_n.rhsIdx_val_of_single rfl i q

/-- The block product into a zero accumulator, at (p, q): row p of the left block times row q of the right. -/
theorem blockProduct_apply (x : FVec Ideal S2048x512 .bf16) (w : FVec Ideal S1024x512 .bf16) (p : Fin 2048) (q : Fin 1024) :
    matmul dot_S2048x512_S1024x512_S2048x1024_1_1_0_0_n_n none x w (constant S2048x1024 .f32 0x00000000#32) (ix2 p q)
      = ∑ kk : Fin 512, x (ix2 p kk) * w (ix2 q kk) := by
  simp only [matmul]
  rw [Ideal.matmul_constant_zero_apply, ← Equiv.sum_comp (contrEquiv1 dot_S2048x512_S1024x512_S2048x1024_1_1_0_0_n_n 512 rfl rfl).symm]
  refine Finset.sum_congr rfl fun k _ => ?_
  have hk := contrEquiv1_symm_val dot_S2048x512_S1024x512_S2048x1024_1_1_0_0_n_n 512 rfl rfl k
  have el : dot_S2048x512_S1024x512_S2048x1024_1_1_0_0_n_n.lhsIdx (ix2 p q) ((contrEquiv1 dot_S2048x512_S1024x512_S2048x1024_1_1_0_0_n_n 512 rfl rfl).symm k) = ix2 p k := funext fun a => Fin.ext (by
    match a with
    | ⟨0, _⟩ => exact lhs_0 _ _
    | ⟨1, _⟩ => exact (lhs_1 _ _).trans hk)
  have er : dot_S2048x512_S1024x512_S2048x1024_1_1_0_0_n_n.rhsIdx (ix2 p q) ((contrEquiv1 dot_S2048x512_S1024x512_S2048x1024_1_1_0_0_n_n 512 rfl rfl).symm k) = ix2 q k := funext fun a => Fin.ext (by
    match a with
    | ⟨0, _⟩ => exact rhs_0 _ _
    | ⟨1, _⟩ => exact (rhs_1 _ _).trans hk)
  rw [el, er]

/-! ## The three stored values at an entry -/

/-- The reset stores zero. -/
theorem reset_apply (j : S2048x1024.Idx) : (k0_pay1 (F := Ideal)) j = 0 := by
  unfold k0_pay1
  simp only [shapeCast_self]
  exact Ideal.ofBits_zero_f32

/-- The accumulator's new value: the old one plus the block product. -/
theorem accumulate_apply (acc : FVec Ideal S2048x1024 .f32) (x : FVec Ideal S2048x512 .bf16) (w : FVec Ideal S1024x512 .bf16)
    (p : Fin 2048) (q : Fin 1024) :
    k0_pay2 acc x w (ix2 p q) = acc (ix2 p q) + ∑ kk : Fin 512, x (ix2 p kk) * w (ix2 q kk) := by
  unfold k0_pay2
  simp only [shapeCast_self]
  show acc (ix2 p q) + matmul dot_S2048x512_S1024x512_S2048x1024_1_1_0_0_n_n none x w (constant S2048x1024 .f32 0x00000000#32) (ix2 p q) = _
  rw [blockProduct_apply]

/-- The value written out: the accumulator plus the bias of the column. -/
theorem emit_apply (acc : FVec Ideal S2048x1024 .f32) (b : FVec Ideal S1024 .f32) (p : Fin 2048) (q : Fin 1024) :
    k0_pay3 acc b (ix2 p q) = acc (ix2 p q) + b (ix1 q) := by
  unfold k0_pay3
  show acc (ix2 p q) + broadcastTo S2048x1024 (shapeCast S1x1024 b shapeCasts_S1024_S1x1024) broadcasts_S1x1024_S2048x1024 (ix2 p q) = _
  rw [broadcastTo_1b_ab_apply, shapeCast_a_1a_apply]

end Cert.KernelIdeal.Payload

end
-- ==== Proof.BlockSum.lean ====
/-
  A row of 4096 entries taken as eight consecutive blocks of 512: the sum over the row is the sum, over the
  blocks in any order, of each block's sum. This is the only law that separates a product accumulated block by
  block along the contracted axis from the whole product; it holds in every commutative monoid, so on the
  extended reals it needs no finiteness.
-/
import Idealize.ShloMosaic.Lib.ValueIdx

open scoped BigOperators

namespace Cert.BlockSum

/-- Entry `j` of block `k` of a row of 4096: column `512·k + j`. The block number is any natural (reduced
    modulo the row length, which changes nothing for the eight real blocks), so that a running sum over the
    first blocks can be written over a range of naturals. -/
def col (k : ℕ) (j : Fin 512) : Fin 4096 := ⟨(512 * k + j.val) % 4096, Nat.mod_lt _ (by decide)⟩

/-- For one of the eight blocks the column is `512·k + j` itself. -/
theorem col_val {k : ℕ} (hk : k < 8) (j : Fin 512) : (col k j).val = 512 * k + j.val := by
  have := j.isLt
  show (512 * k + j.val) % 4096 = _
  omega

/-- (block, entry) pairs are the columns. -/
def blockEquiv : Fin 8 × Fin 512 ≃ Fin 4096 := finProdFinEquiv.trans (finCongr (by decide))

theorem blockEquiv_val (k : Fin 8) (j : Fin 512) : (blockEquiv (k, j)).val = j.val + 512 * k.val := rfl

/-- The sum over the eight blocks of each block's sum is the sum over the row. -/
theorem sum_blocks {M : Type*} [AddCommMonoid M] (f : Fin 4096 → M) :
    ∑ k ∈ Finset.range 8, ∑ j : Fin 512, f (col k j) = ∑ i : Fin 4096, f i := by
  rw [Finset.sum_range, ← Equiv.sum_comp blockEquiv f, Fintype.sum_prod_type]
  refine Finset.sum_congr rfl fun k _ => Finset.sum_congr rfl fun j _ => congrArg f (Fin.ext ?_)
  rw [col_val k.isLt, blockEquiv_val]
  omega

end Cert.BlockSum
-- ==== Proof.KValue.lean ====
/-
  What the kernel's region leaves in its result array [8192, 4096], on the extended reals. Grid point t works on
  row block t / 32 (2048 rows), column block (t / 8) % 4 (1024 columns) and block t % 8 of the contracted axis
  (512 entries). Along t % 8 = 0, …, 7 the accumulator at (p, q) is the product of input row r with weight row o
  over the first t % 8 + 1 blocks of the contracted axis, r and o the array coordinates of (p, q); at t % 8 = 7
  that is the whole product (eight blocks of 512 are the row of 4096), and the block written back there is the
  product plus the bias at o. The sixteen written blocks tile the array.
-/
import proofs.«113631_j81003083203670_1_alg».proof.Proof.KPieces
import proofs.«113631_j81003083203670_1_alg».proof.Proof.KPayload
import proofs.«113631_j81003083203670_1_alg».proof.Proof.BlockSum
import Idealize.ShloMosaic.Lib.Pipeline.Value

set_option maxRecDepth 16384

noncomputable section

open scoped BigOperators
open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx Cert.BlockSum

variable (m : (ℓ : Loc nD τ sig) → Buf (Elt Ideal) ℓ)

/-- The three arrays the region reads, as it finds them: the input as [8192, 4096], the weight, the bias. -/
abbrev xarr (c : Dev nD) : FVec Ideal S8192x4096 .bf16 := V m c main_v1
abbrev warr (c : Dev nD) : FVec Ideal S4096x4096 .bf16 := V m c main_v14
abbrev barr (c : Dev nD) : FVec Ideal S4096 .f32 := V m c main_arg3
/-- Their blocks at a grid point. -/
abbrev xblk (c : Dev nD) (t : Fin cfg0.N) : FVec Ideal S2048x512 .bf16 := iblk m c 0 t
abbrev wblk (c : Dev nD) (t : Fin cfg0.N) : FVec Ideal S1024x512 .bf16 := iblk m c 1 t
abbrev bblk (c : Dev nD) (t : Fin cfg0.N) : FVec Ideal S1024 .f32 := iblk m c 2 t

/-- Where point t sits: the block index of each window on each axis. -/
theorem grid_facts : ∀ t : Fin cfg0.N, win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 1) = t.val / 8 % 4
    ∧ win0_3.index t (0 : Fin 2) = t.val / 32 ∧ win0_3.index t (1 : Fin 2) = t.val / 8 % 4 :=
  (by decide +kernel : ∀ t : Fin grid0.N, _)

/-! ## The blocks are pieces of the arrays -/

theorem xblk_apply (c : Dev nD) (t : Fin cfg0.N) (p : Fin 2048) (kk : Fin 512) (r : Fin 8192)
    (hr : r.val = t.val / 32 * 2048 + p.val) :
    xblk m c t (ix2 p kk) = xarr m c (ix2 r (col (t.val % 8) kk)) := by
  obtain ⟨e0, e1, -⟩ := grid_facts t
  have hp := p.isLt
  have hk := kk.isLt
  show V m c main_v1 (((cfg0.win 0).blk t).view.emb (ix2 p kk)) = V m c main_v1 (ix2 r (col (t.val % 8) kk))
  refine congrArg (V m c main_v1) (funext fun a => Fin.ext ?_)
  match a with
  | ⟨0, _⟩ => show win0_0.index t (0 : Fin 2) * 2048 + 1 * p.val = r.val; rw [e0, hr]; omega
  | ⟨1, _⟩ => show win0_0.index t (1 : Fin 2) * 512 + 1 * kk.val = (col (t.val % 8) kk).val; rw [e1, col_val (by omega)]; omega

theorem wblk_apply (c : Dev nD) (t : Fin cfg0.N) (q : Fin 1024) (kk : Fin 512) (o : Fin 4096)
    (ho : o.val = t.val / 8 % 4 * 1024 + q.val) :
    wblk m c t (ix2 q kk) = warr m c (ix2 o (col (t.val % 8) kk)) := by
  obtain ⟨-, -, e2, e3, -⟩ := grid_facts t
  have hq := q.isLt
  have hk := kk.isLt
  show V m c main_v14 (((cfg0.win 1).blk t).view.emb (ix2 q kk)) = V m c main_v14 (ix2 o (col (t.val % 8) kk))
  refine congrArg (V m c main_v14) (funext fun a => Fin.ext ?_)
  match a with
  | ⟨0, _⟩ => show win0_1.index t (0 : Fin 2) * 1024 + 1 * q.val = o.val; rw [e2, ho]; omega
  | ⟨1, _⟩ => show win0_1.index t (1 : Fin 2) * 512 + 1 * kk.val = (col (t.val % 8) kk).val; rw [e3, col_val (by omega)]; omega

theorem bblk_apply (c : Dev nD) (t : Fin cfg0.N) (q : Fin 1024) (o : Fin 4096)
    (ho : o.val = t.val / 8 % 4 * 1024 + q.val) :
    bblk m c t (ix1 q) = barr m c (ix1 o) := by
  obtain ⟨-, -, -, -, e4, -⟩ := grid_facts t
  have hq := q.isLt
  show V m c main_arg3 (((cfg0.win 2).blk t).view.emb (ix1 q)) = V m c main_arg3 (ix1 o)
  refine congrArg (V m c main_arg3) (funext fun a => Fin.ext ?_)
  match a with
  | ⟨0, _⟩ => show win0_2.index t (0 : Fin 1) * 1024 + 1 * q.val = o.val; rw [e4, ho]; omega

/-! ## What each point leaves, as the body's stored values of the blocks -/

/-- At the first block of the contracted axis the accumulator is reset, then takes the block product. -/
theorem scratch_first (c : Dev nD) (t : Fin cfg0.N) (h0 : t.val % 8 = 0) :
    (outsAt0 m c t.val t.isLt).2 = k0_pay2 (F := Ideal) (k0_pay1 (F := Ideal)) (xblk m c t) (wblk m c t) := by
  have h1 : ¬t.val % 8 = 7 := by omega
  rw [outsAt0_A m c t h0 h1]
  dsimp only
  exact Pieces.acc_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
    (iblk m c 0 t) (iblk m c 1 t) (iblk m c 2 t)

/-- At a later block it takes what the point before left plus the block product. -/
theorem scratch_next (c : Dev nD) (n : ℕ) (h : n + 1 < cfg0.N) (h0 : ¬(n + 1) % 8 = 0) :
    (outsAt0 m c (n + 1) h).2
      = k0_pay2 (F := Ideal) (outsAt0 m c n (Nat.lt_of_succ_lt h)).2 (xblk m c ⟨n + 1, h⟩) (wblk m c ⟨n + 1, h⟩) := by
  by_cases h1 : (n + 1) % 8 = 7
  · rw [outsAt0_C m c ⟨n + 1, h⟩ h0 h1]
    dsimp only
    exact Pieces.acc_last (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun h' => h0 ((hcond0_0 ⟨n + 1, h⟩).mp h')) ((hcond0_1 ⟨n + 1, h⟩).mpr h1)
      (iblk m c 0 ⟨n + 1, h⟩) (iblk m c 1 ⟨n + 1, h⟩) (iblk m c 2 ⟨n + 1, h⟩) (outsAt0 m c n (Nat.lt_of_succ_lt h)).2
  · rw [outsAt0_B m c ⟨n + 1, h⟩ h0 h1]
    dsimp only
    exact Pieces.acc_middle (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun h' => h0 ((hcond0_0 ⟨n + 1, h⟩).mp h')) (fun h' => h1 ((hcond0_1 ⟨n + 1, h⟩).mp h'))
      (iblk m c 0 ⟨n + 1, h⟩) (iblk m c 1 ⟨n + 1, h⟩) (iblk m c 2 ⟨n + 1, h⟩) (outsAt0 m c n (Nat.lt_of_succ_lt h)).2

/-- At the last block the output block is the new accumulator plus the bias block. -/
theorem out_last (c : Dev nD) (n : ℕ) (h : n + 1 < cfg0.N) (h1 : (n + 1) % 8 = 7) :
    (outsAt0 m c (n + 1) h).1
      = k0_pay3 (F := Ideal) (k0_pay2 (F := Ideal) (outsAt0 m c n (Nat.lt_of_succ_lt h)).2 (xblk m c ⟨n + 1, h⟩) (wblk m c ⟨n + 1, h⟩)) (bblk m c ⟨n + 1, h⟩) := by
  have h0 : ¬(n + 1) % 8 = 0 := by omega
  rw [outsAt0_C m c ⟨n + 1, h⟩ h0 h1]
  dsimp only
  exact Pieces.out_last (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun h' => h0 ((hcond0_0 ⟨n + 1, h⟩).mp h')) ((hcond0_1 ⟨n + 1, h⟩).mpr h1)
    (iblk m c 0 ⟨n + 1, h⟩) (iblk m c 1 ⟨n + 1, h⟩) (iblk m c 2 ⟨n + 1, h⟩) (outsAt0 m c n (Nat.lt_of_succ_lt h)).2

/-! ## The accumulator along the contracted axis -/

/-- Input row r times weight row o over block k of the contracted axis. -/
def blockDot (c : Dev nD) (r : Fin 8192) (o : Fin 4096) (k : ℕ) : EReal :=
  ∑ kk : Fin 512, xarr m c (ix2 r (col k kk)) * warr m c (ix2 o (col k kk))

/-- One accumulation step at (p, q): the block product is the block of the row product. -/
theorem step_apply (c : Dev nD) (t : Fin cfg0.N) (acc : FVec Ideal S2048x1024 .f32) (p : Fin 2048) (q : Fin 1024)
    (r : Fin 8192) (o : Fin 4096) (hr : r.val = t.val / 32 * 2048 + p.val) (ho : o.val = t.val / 8 % 4 * 1024 + q.val) :
    k0_pay2 (F := Ideal) acc (xblk m c t) (wblk m c t) (ix2 p q) = acc (ix2 p q) + blockDot m c r o (t.val % 8) := by
  rw [Payload.accumulate_apply]
  refine congrArg (acc (ix2 p q) + ·) (Finset.sum_congr rfl fun kk _ => ?_)
  rw [xblk_apply m c t p kk r hr, wblk_apply m c t q kk o ho]

/-- After point n the accumulator at (p, q) is the row product over the first n % 8 + 1 blocks. -/
theorem scratch_apply (c : Dev nD) : ∀ (n : ℕ) (h : n < cfg0.N) (p : Fin 2048) (q : Fin 1024) (r : Fin 8192) (o : Fin 4096),
    r.val = n / 32 * 2048 + p.val → o.val = n / 8 % 4 * 1024 + q.val →
    (outsAt0 m c n h).2 (ix2 p q) = ∑ k ∈ Finset.range (n % 8 + 1), blockDot m c r o k
  | 0, h, p, q, r, o, hr, ho => by
    rw [scratch_first m c ⟨0, h⟩ rfl, step_apply m c ⟨0, h⟩ _ p q r o hr ho, Payload.reset_apply, zero_add]
    show blockDot m c r o 0 = ∑ k ∈ Finset.range 1, blockDot m c r o k
    rw [Finset.sum_range_one]
  | n + 1, h, p, q, r, o, hr, ho => by
    by_cases h0 : (n + 1) % 8 = 0
    · rw [scratch_first m c ⟨n + 1, h⟩ h0, step_apply m c ⟨n + 1, h⟩ _ p q r o hr ho, Payload.reset_apply, zero_add]
      show blockDot m c r o ((n + 1) % 8) = _
      rw [h0, Finset.sum_range_one]
    · have e : (n + 1) % 8 = n % 8 + 1 := by omega
      rw [scratch_next m c n h h0, step_apply m c ⟨n + 1, h⟩ _ p q r o hr ho,
        scratch_apply c n (Nat.lt_of_succ_lt h) p q r o (by omega) (by omega)]
      show _ + blockDot m c r o ((n + 1) % 8) = _
      rw [e]
      exact (Finset.sum_range_succ (fun k => blockDot m c r o k) (n % 8 + 1)).symm

/-! ## The result array -/

/-- Entry (r, o) of the result: input row r times weight row o, plus the bias at o. -/
def entry (c : Dev nD) (r : Fin 8192) (o : Fin 4096) : EReal :=
  (∑ i : Fin 4096, xarr m c (ix2 r i) * warr m c (ix2 o i)) + barr m c (ix1 o)

/-- The result array. -/
def result (c : Dev nD) : FVec Ideal S8192x4096 .f32 := fun i => entry m c (i 0) (i 1)

/-- The block written back at the last block of the contracted axis, at (p, q). -/
theorem out_apply (c : Dev nD) (t : Fin cfg0.N) (h7 : t.val % 8 = 7) (p : Fin 2048) (q : Fin 1024) (r : Fin 8192) (o : Fin 4096)
    (hr : r.val = t.val / 32 * 2048 + p.val) (ho : o.val = t.val / 8 % 4 * 1024 + q.val) :
    (outsAt0 m c t.val t.isLt).1 (ix2 p q) = entry m c r o := by
  obtain ⟨n, h⟩ := t
  cases n with
  | zero => exact absurd (show (0 : ℕ) % 8 = 7 from h7) (by decide)
  | succ n =>
    have h7' : (n + 1) % 8 = 7 := h7
    have hr' : r.val = (n + 1) / 32 * 2048 + p.val := hr
    have ho' : o.val = (n + 1) / 8 % 4 * 1024 + q.val := ho
    show (outsAt0 m c (n + 1) h).1 (ix2 p q) = _
    rw [out_last m c n h h7', Payload.emit_apply, step_apply m c ⟨n + 1, h⟩ _ p q r o hr ho,
      scratch_apply m c n (Nat.lt_of_succ_lt h) p q r o (by omega) (by omega), bblk_apply m c ⟨n + 1, h⟩ q o ho]
    show (∑ k ∈ Finset.range (n % 8 + 1), blockDot m c r o k) + blockDot m c r o ((n + 1) % 8) + _ = _
    have e6 : n % 8 + 1 = 7 := by omega
    rw [e6, h7', ← Finset.sum_range_succ]
    unfold entry blockDot
    rw [sum_blocks (fun i => xarr m c (ix2 r i) * warr m c (ix2 o i))]

/-- So what a writing point writes back is its block of the result array. -/
theorem out_block (c : Dev nD) (t : Fin cfg0.N) (h7 : t.val % 8 = 7) (j : S2048x1024.Idx) :
    (outsAt0 m c t.val t.isLt).1 j = result m c (((cfg0.win 3).blk t).view.emb j) := by
  obtain ⟨p, q, rfl⟩ : ∃ (p : Fin 2048) (q : Fin 1024), j = ix2 p q := ⟨j 0, j 1, eq_ix2 j⟩
  obtain ⟨-, -, -, -, -, e5, e6⟩ := grid_facts t
  have hr : ((((cfg0.win 3).blk t).view.emb (ix2 p q)) 0).val = t.val / 32 * 2048 + p.val := by
    show win0_3.index t (0 : Fin 2) * 2048 + 1 * p.val = _
    rw [e5]; omega
  have ho : ((((cfg0.win 3).blk t).view.emb (ix2 p q)) 1).val = t.val / 8 % 4 * 1024 + q.val := by
    show win0_3.index t (1 : Fin 2) * 1024 + 1 * q.val = _
    rw [e6]; omega
  exact out_apply m c t h7 p q _ _ hr ho

theorem flushed_eq (c : Dev nD) (t : Fin cfg0.N) (hf : (cfg0.win 3).flush t = true) :
    (dats m 0 c).flushed 3 t = ((cfg0.win 3).blk t).view.read (Elt Ideal) (result m c) := by
  have h7 : t.val % 8 = 7 := (flush0_3 t).mp hf
  show (cfg0.win 3).cut (grid0.coords t) ((dats m 0 c).after 3 t) = _
  rw [after0_3]
  funext j
  exact out_block m c t h7 j

/-- An index of the array is in point t's block iff each coordinate is in the block's range. -/
theorem mem_blk (t : Fin cfg0.N) (i : S8192x4096.Idx) :
    i ∈ ((cfg0.win 3).blk t).view.set ↔ ∀ a : Fin 2, win0_3.index t a * S2048x1024.size a ≤ (i a).val ∧ (i a).val < win0_3.index t a * S2048x1024.size a + S2048x1024.size a := by
  show i ∈ ((View.whole main_v15).slice (win0_3.rect t)).set ↔ _
  rw [View.set_slice_whole, Rect.mem_set_unit]
  exact Iff.rfl

/-- Every index of the array is in the block of a writing point: the one of its row block and column block. -/
theorem cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 128 := N_0
  obtain ⟨t, tv⟩ : ∃ t : Fin cfg0.N, t.val = (i 0).val / 2048 * 32 + (i 1).val / 1024 * 8 + 7 :=
    ⟨⟨(i 0).val / 2048 * 32 + (i 1).val / 1024 * 8 + 7, by rw [hN]; omega⟩, rfl⟩
  obtain ⟨-, -, -, -, -, e5, e6⟩ := grid_facts t
  refine ⟨t, (flush0_3 t).mpr (by omega), ?_⟩
  rw [mem_blk]
  intro a
  match a with
  | ⟨0, _⟩ =>
    show win0_3.index t (0 : Fin 2) * 2048 ≤ (i 0).val ∧ (i 0).val < win0_3.index t (0 : Fin 2) * 2048 + 2048
    rw [e5]; omega
  | ⟨1, _⟩ =>
    show win0_3.index t (1 : Fin 2) * 1024 ≤ (i 1).val ∧ (i 1).val < win0_3.index t (1 : Fin 2) * 1024 + 1024
    rw [e6]; omega

/-- The result array after the region. -/
theorem final (c : Dev nD) : (dats m 0 c).arrAt 3 cfg0.N = result m c :=
  (dats m 0 c).arrAt_eq_of_cover 3 (result m c) (fun t hf => flushed_eq m c t hf) (cover)

end Cert.KernelIdeal.KValue

end
-- ==== Proof.KRun.lean ====
/-
  The kernel's program around its region. Before the region the host lays the input out as [8192, 4096] and
  builds the dequantized weight matrix (both then change float format, which on the extended reals changes
  nothing); the bias goes in as it is. After the region the [8192, 4096] result is laid out as [4, 2048, 4096].
  So the run ends with the result array at that layout of the region's result, the arguments unchanged.
-/
import proofs.«113631_j81003083203670_1_alg».proof.Proof.KValue
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.KRun

open Cert.KernelIdeal Cert.KernelIdeal.Gen Idealize.ShloMosaic.StableHlo

section Weight
variable {F : FTy → Type} [FloatOps F]

/-- The table index each stored index selects: clipped to 0..15, then the wrap of a negative index. -/
def tableIndex (idx : (⟨S4096x256x16, .i32⟩ : BufTy).Contents (Elt F)) : (⟨S4096x256x16, .i32⟩ : BufTy).Contents (Elt F) :=
  select
    (cmpi .slt
      (minsi (broadcastInDim S4096x256x16 ![] bcast_S_S4096x256x16 (constantI S_ 32 15#32))
        (maxsi (broadcastInDim S4096x256x16 ![] bcast_S_S4096x256x16 (constantI S_ 32 0#32)) idx))
      (broadcastInDim S4096x256x16 ![] bcast_S_S4096x256x16 (constantI S_ 32 0#32)))
    (addi
      (minsi (broadcastInDim S4096x256x16 ![] bcast_S_S4096x256x16 (constantI S_ 32 15#32))
        (maxsi (broadcastInDim S4096x256x16 ![] bcast_S_S4096x256x16 (constantI S_ 32 0#32)) idx))
      (broadcastInDim S4096x256x16 ![] bcast_S_S4096x256x16 (constantI S_ 32 16#32)))
    (minsi (broadcastInDim S4096x256x16 ![] bcast_S_S4096x256x16 (constantI S_ 32 15#32))
      (maxsi (broadcastInDim S4096x256x16 ![] bcast_S_S4096x256x16 (constantI S_ 32 0#32)) idx))

/-- The dequantized weight matrix [4096, 4096] of the index table and the per-block scales. -/
def weight (idx : (⟨S4096x256x16, .i32⟩ : BufTy).Contents (Elt F)) (sc : (⟨S4096x256, .f32⟩ : BufTy).Contents (Elt F)) :
    (⟨S4096x4096, .f32⟩ : BufTy).Contents (Elt F) :=
  shapeCast S4096x4096
    (mulf
      (Host.gather gather_S16_S4096x256x16x1_S4096x256x16_n_0_n_n_0_3_1
        (fun i => FloatOps.ofBits .f32 (lit0 (S16.rowMajor i)))
        (broadcastInDim S4096x256x16x1 ![0, 1, 2] bcast_S4096x256x16_S4096x256x16x1_0_1_2 (tableIndex idx)))
      (broadcastInDim S4096x256x16 ![0, 1, 2] bcast_S4096x256x1_S4096x256x16_0_1_2
        (broadcastInDim S4096x256x1 ![0, 1] bcast_S4096x256_S4096x256x1_0_1 sc)))
    shapeCasts_S4096x256x16_S4096x4096

set_option maxHeartbeats 1600000 in
/-- The host operations before the region leave, in the weight's buffer, the dequantized matrix of the index
    table and the scales as they were (in the narrower float format). -/
theorem prefix_weight (W : Valuation τ sig (Elt F)) :
    StableHlo.after (List.flatten [hostOps0, hostOps0_1, hostOps0_2]) W (Proc.devRef .tc main_v14)
      = truncf .bf16 (weight (W (Proc.devRef .tc main_arg1)) (W (Proc.devRef .tc main_arg2))) bitsLt_bf16_f32 := by
  simp only [hostOps0, hostOps0_1, hostOps0_2, List.flatten_cons, List.flatten_nil, List.append_nil, List.cons_append, List.nil_append]
  after_results_simp
  rfl
end Weight

variable (m : (ℓ : Loc nD τ sig) → Buf (Elt Ideal) ℓ) (ρ : Dev nD → PrngReg)

/-! ## What the region finds -/

/-- The input as the region finds it: the argument laid out as [8192, 4096]. -/
theorem xarr_eq (c : Dev nD) :
    KValue.xarr m c = truncf .bf16 (shapeCast S8192x4096 (m ((c : Thread nD τ).loc main_arg0)) shapeCasts_S4x2048x4096_S8192x4096) bitsLt_bf16_f32 := by
  show V m c main_v1 = _
  dsimp only [V, V0]
  simp only [hostOps0, hostOps0_1, hostOps0_2, List.flatten_cons, List.flatten_nil, List.append_nil, List.cons_append, List.nil_append]
  after_results
  rfl

/-- The weight as the region finds it: the dequantized matrix of the index table and the scales. -/
theorem warr_eq (c : Dev nD) :
    KValue.warr m c = truncf .bf16 (weight (m ((c : Thread nD τ).loc main_arg1)) (m ((c : Thread nD τ).loc main_arg2))) bitsLt_bf16_f32 := by
  show V m c main_v14 = _
  exact prefix_weight (F := Ideal) (fun b => m (c, b))

/-- The bias as the region finds it: the argument. -/
theorem barr_eq (c : Dev nD) : KValue.barr m c = m ((c : Thread nD τ).loc main_arg3) := V_main_arg3 m c

/-! ## After the region -/

/-- The program's result: the region's result laid out as [4, 2048, 4096]. -/
def result (c : Dev nD) : FVec Ideal S4x2048x4096 .f32 :=
  shapeCast S4x2048x4096 (KValue.result m c) shapeCasts_S8192x4096_S4x2048x4096

theorem tail_eq (c : Dev nD) :
    Pipeline.afterTail₀ cfgs (dats m) 0 (V0 m) [hostOps1] c main_v16 = result m c := by
  unfold Pipeline.afterTail₀
  show StableHlo.after hostOps1 _ (Proc.devRef .tc main_v16) = _
  after_results
  rw [(Pipeline.withArrays_arr spec0 launch0.win.arr_inj c _ _ 3).trans (KValue.final m c)]
  rfl

/-- Every weakly fair execution of the kernel's program terminates with the result array at `result` and the
    arguments unchanged. -/
theorem run : θ_run defs (onTc (τ := τ) (main (F := Ideal))) ⟨m, fun _ => 0, ρ⟩ fun r => ∀ c : Dev nD,
      r.2.mem ((c.tc : Thread nD τ).loc main_v16) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v16 (Pipeline.mem_restRefs_of main_v16 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).1 2).trans (((dats m 0 c).arrAt_in 2 rfl _).trans ((A_eq m c 2).trans (V_main_arg3 m c)))⟩)
    (run_main m ρ)

end Cert.KernelIdeal.KRun

end
-- ==== Proof.RefRun.lean ====
/-
  The reference as a straight line of host operations, and what its run leaves: the result array is one pure
  term of the four argument arrays. The term has two parts. The dequantized weight matrix: each index of the
  table of indices is clipped to 0..15 (and, where negative, moved up by 16, which after the clip never
  happens), the sixteen-entry value table is read there, the value is multiplied by its block's scale, and the
  [4096, 256, 16] array is laid out as [4096, 4096]. The linear layer: the input contracted with the weight
  along their last axes, plus the bias along the last axis.
-/
import proofs.«113631_j81003083203670_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The table index each stored index selects: clipped to 0..15, then the wrap of a negative index. -/
def tableIndex (idx : (⟨S4096x256x16, .i32⟩ : BufTy).Contents (Elt F)) : (⟨S4096x256x16, .i32⟩ : BufTy).Contents (Elt F) :=
  select
    (cmpi .slt
      (minsi (broadcastInDim S4096x256x16 ![] bcast_S_S4096x256x16 (constantI S_ 32 15#32))
        (maxsi (broadcastInDim S4096x256x16 ![] bcast_S_S4096x256x16 (constantI S_ 32 0#32)) idx))
      (broadcastInDim S4096x256x16 ![] bcast_S_S4096x256x16 (constantI S_ 32 0#32)))
    (addi
      (minsi (broadcastInDim S4096x256x16 ![] bcast_S_S4096x256x16 (constantI S_ 32 15#32))
        (maxsi (broadcastInDim S4096x256x16 ![] bcast_S_S4096x256x16 (constantI S_ 32 0#32)) idx))
      (broadcastInDim S4096x256x16 ![] bcast_S_S4096x256x16 (constantI S_ 32 16#32)))
    (minsi (broadcastInDim S4096x256x16 ![] bcast_S_S4096x256x16 (constantI S_ 32 15#32))
      (maxsi (broadcastInDim S4096x256x16 ![] bcast_S_S4096x256x16 (constantI S_ 32 0#32)) idx))

/-- The dequantized weight matrix [4096, 4096] of the index table and the per-block scales. -/
def weight (idx : (⟨S4096x256x16, .i32⟩ : BufTy).Contents (Elt F)) (sc : (⟨S4096x256, .f32⟩ : BufTy).Contents (Elt F)) :
    (⟨S4096x4096, .f32⟩ : BufTy).Contents (Elt F) :=
  shapeCast S4096x4096
    (mulf
      (Host.gather gather_S16_S4096x256x16x1_S4096x256x16_n_0_n_n_0_3_1
        (fun i => FloatOps.ofBits .f32 (lit0 (S16.rowMajor i)))
        (broadcastInDim S4096x256x16x1 ![0, 1, 2] bcast_S4096x256x16_S4096x256x16x1_0_1_2 (tableIndex idx)))
      (broadcastInDim S4096x256x16 ![0, 1, 2] bcast_S4096x256x1_S4096x256x16_0_1_2
        (broadcastInDim S4096x256x1 ![0, 1] bcast_S4096x256_S4096x256x1_0_1 sc)))
    shapeCasts_S4096x256x16_S4096x4096

/-- The linear layer over a weight matrix: the contraction along both last axes, plus the bias. -/
def linear (x : (⟨S4x2048x4096, .f32⟩ : BufTy).Contents (Elt F)) (w : (⟨S4096x4096, .f32⟩ : BufTy).Contents (Elt F))
    (b : (⟨S4096, .f32⟩ : BufTy).Contents (Elt F)) : (⟨S4x2048x4096, .f32⟩ : BufTy).Contents (Elt F) :=
  addf (Host.dotGeneral dot_S4x2048x4096_S4096x4096_S4x2048x4096_2_1_01_0_n_n none x w)
    (broadcastInDim S4x2048x4096 ![0, 1, 2] bcast_S1x1x4096_S4x2048x4096_0_1_2
      (broadcastInDim S1x1x4096 ![2] bcast_S4096_S1x1x4096_2 b))

/-- The program's operations in order: three constants, the six operations of the clip at its call, then
    seventeen more. -/
abbrev ops : List (HloOp τ sig (Elt F)) :=
  [ nullary main_cst (fun i => FloatOps.ofBits .f32 (lit0 (S16.rowMajor i))),
    nullary main_c (constantI S_ 32 0#32),
    nullary main_c_0 (constantI S_ 32 15#32),
    TRef.unary (.of main_c) main_call0.v0 id,
    TRef.unary main_call0.v0 main_call0.v1 (broadcastInDim S4096x256x16 ![] bcast_S_S4096x256x16),
    TRef.binary main_call0.v1 (.of main_arg1) main_call0.v2 maxsi,
    TRef.unary (.of main_c_0) main_call0.v3 id,
    TRef.unary main_call0.v3 main_call0.v4 (broadcastInDim S4096x256x16 ![] bcast_S_S4096x256x16),
    TRef.binary main_call0.v4 main_call0.v2 main_call0.v5 minsi,
    nullary main_c_1 (constantI S_ 32 0#32),
    unary main_c_1 main_v1 (broadcastInDim S4096x256x16 ![] bcast_S_S4096x256x16 : (⟨S_, .i32⟩ : BufTy).Contents (Elt F) → (⟨S4096x256x16, .i32⟩ : BufTy).Contents (Elt F)),
    binary main_v0 main_v1 main_v2 (cmpi .slt : (⟨S4096x256x16, .i32⟩ : BufTy).Contents (Elt F) → (⟨S4096x256x16, .i32⟩ : BufTy).Contents (Elt F) → (⟨S4096x256x16, .i1⟩ : BufTy).Contents (Elt F)),
    nullary main_c_2 (constantI S_ 32 16#32),
    unary main_c_2 main_v3 (broadcastInDim S4096x256x16 ![] bcast_S_S4096x256x16 : (⟨S_, .i32⟩ : BufTy).Contents (Elt F) → (⟨S4096x256x16, .i32⟩ : BufTy).Contents (Elt F)),
    binary main_v0 main_v3 main_v4 (addi : (⟨S4096x256x16, .i32⟩ : BufTy).Contents (Elt F) → (⟨S4096x256x16, .i32⟩ : BufTy).Contents (Elt F) → (⟨S4096x256x16, .i32⟩ : BufTy).Contents (Elt F)),
    ternary main_v2 main_v4 main_v0 main_v5 (select : (⟨S4096x256x16, .i1⟩ : BufTy).Contents (Elt F) → (⟨S4096x256x16, .i32⟩ : BufTy).Contents (Elt F) → (⟨S4096x256x16, .i32⟩ : BufTy).Contents (Elt F) → (⟨S4096x256x16, .i32⟩ : BufTy).Contents (Elt F)),
    unary main_v5 main_v6 (broadcastInDim S4096x256x16x1 ![0, 1, 2] bcast_S4096x256x16_S4096x256x16x1_0_1_2 : (⟨S4096x256x16, .i32⟩ : BufTy).Contents (Elt F) → (⟨S4096x256x16x1, .i32⟩ : BufTy).Contents (Elt F)),
    binary main_cst main_v6 main_v7 ((fun x i => Host.gather gather_S16_S4096x256x16x1_S4096x256x16_n_0_n_n_0_3_1 x i) : (⟨S16, .f32⟩ : BufTy).Contents (Elt F) → (⟨S4096x256x16x1, .i32⟩ : BufTy).Contents (Elt F) → (⟨S4096x256x16, .f32⟩ : BufTy).Contents (Elt F)),
    unary main_arg2 main_v8 (broadcastInDim S4096x256x1 ![0, 1] bcast_S4096x256_S4096x256x1_0_1 : (⟨S4096x256, .f32⟩ : BufTy).Contents (Elt F) → (⟨S4096x256x1, .f32⟩ : BufTy).Contents (Elt F)),
    unary main_v8 main_v9 (broadcastInDim S4096x256x16 ![0, 1, 2] bcast_S4096x256x1_S4096x256x16_0_1_2 : (⟨S4096x256x1, .f32⟩ : BufTy).Contents (Elt F) → (⟨S4096x256x16, .f32⟩ : BufTy).Contents (Elt F)),
    binary main_v7 main_v9 main_v10 (mulf : (⟨S4096x256x16, .f32⟩ : BufTy).Contents (Elt F) → (⟨S4096x256x16, .f32⟩ : BufTy).Contents (Elt F) → (⟨S4096x256x16, .f32⟩ : BufTy).Contents (Elt F)),
    reshape main_v10 main_v11 rfl shapeCasts_S4096x256x16_S4096x4096,
    binary main_arg0 main_v11 main_v12 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)),
    unary main_arg3 main_v13 (broadcastInDim S1x1x4096 ![2] bcast_S4096_S1x1x4096_2 : (⟨S4096, .f32⟩ : BufTy).Contents (Elt F) → (⟨S1x1x4096, .f32⟩ : BufTy).Contents (Elt F)),
    unary main_v13 main_v14 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    binary main_v12 main_v14 main_v15 (addf : (⟨S4x2048x4096, .f32⟩ : BufTy).Contents (Elt F) → (⟨S4x2048x4096, .f32⟩ : BufTy).Contents (Elt F) → (⟨S4x2048x4096, .f32⟩ : BufTy).Contents (Elt F)) ]

set_option maxRecDepth 1024 in
/-- The program is that straight line: the clip's definition unfolded at its call, the sequencing reassociated. -/
theorem main_eq (c : Dev nD) : main (F := F) c = seq ops := by
  simp only [main, fn_clip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., unary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., unary_bufs_sub .., binary_bufs_sub .., reshape_bufs_sub .., binary_bufs_sub .., unary_bufs_sub ..,
    unary_bufs_sub .., binary_bufs_sub ..⟩

/-- After the operations the result buffer holds the linear layer over the dequantized weight. -/
theorem out_eq (V : Valuation τ sig (Elt F)) :
    after ops V (main_v15 : DevRef τ sig)
      = linear (V (main_arg0 : DevRef τ sig)) (weight (V (main_arg1 : DevRef τ sig)) (V (main_arg2 : DevRef τ sig)))
          (V (main_arg3 : DevRef τ sig)) := by
  after_results
  rfl

theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results
theorem arg3_eq (V : Valuation τ sig (Elt F)) : after ops V (main_arg3 : DevRef τ sig) = V (main_arg3 : DevRef τ sig) := by
  after_results

/-- Every weakly fair execution of the reference terminates with the result array at the linear layer over the
    dequantized weight, of the argument arrays as launched, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v15)
          = linear (m ((c.tc : Thread nD τ).loc main_arg0))
              (weight (m ((c.tc : Thread nD τ).loc main_arg1)) (m ((c.tc : Thread nD τ).loc main_arg2)))
              (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v15).trans (out_eq _), (h c main_arg0).trans (arg0_eq _),
      (h c main_arg1).trans (arg1_eq _), (h c main_arg2).trans (arg2_eq _), (h c main_arg3).trans (arg3_eq _)⟩)
    (run_seq scopedRefs_eq scopedSems_eq defs main (fun _ => ops) main_eq (fun _ => ops_sub) m ρ)

end Cert.ReferenceIdeal.RefRun

end
-- ==== Proof.RefValue.lean ====
/-
  The reference's linear layer read at one entry, on the extended reals: at (b, s, o) it is the sum over the
  4096 input features i of the input at (b, s, i) times the weight at (o, i), plus the bias at o.
-/
import proofs.«113631_j81003083203670_1_alg».proof.Proof.RefRun
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.RefRun Idealize.ShloMosaic Idealize.ShloMosaic.ValueIdx

/-! ## The contraction's operand indices, axis by axis -/

theorem lhs_0 (i : S4x2048x4096.Idx) (q : dot_S4x2048x4096_S4096x4096_S4x2048x4096_2_1_01_0_n_n.contr.Idx) :
    (dot_S4x2048x4096_S4096x4096_S4x2048x4096_2_1_01_0_n_n.lhsIdx i q 0).val = (i 0).val := by
  unfold DotDims.lhsIdx
  rw [dif_neg (show ¬(0 : Fin S4x2048x4096.rank) ∈ dot_S4x2048x4096_S4096x4096_S4x2048x4096_2_1_01_0_n_n.lhsBatch by decide), dif_pos (show (0 : Fin S4x2048x4096.rank) ∈ dot_S4x2048x4096_S4096x4096_S4x2048x4096_2_1_01_0_n_n.lhsNonContracting by decide)]
  rfl

theorem lhs_1 (i : S4x2048x4096.Idx) (q : dot_S4x2048x4096_S4096x4096_S4x2048x4096_2_1_01_0_n_n.contr.Idx) :
    (dot_S4x2048x4096_S4096x4096_S4x2048x4096_2_1_01_0_n_n.lhsIdx i q 1).val = (i 1).val := by
  unfold DotDims.lhsIdx
  rw [dif_neg (show ¬(1 : Fin S4x2048x4096.rank) ∈ dot_S4x2048x4096_S4096x4096_S4x2048x4096_2_1_01_0_n_n.lhsBatch by decide), dif_pos (show (1 : Fin S4x2048x4096.rank) ∈ dot_S4x2048x4096_S4096x4096_S4x2048x4096_2_1_01_0_n_n.lhsNonContracting by decide)]
  rfl

theorem lhs_2 (i : S4x2048x4096.Idx) (q : dot_S4x2048x4096_S4096x4096_S4x2048x4096_2_1_01_0_n_n.contr.Idx) :
    (dot_S4x2048x4096_S4096x4096_S4x2048x4096_2_1_01_0_n_n.lhsIdx i q 2).val = (q ⟨0, by decide⟩).val :=
  dot_S4x2048x4096_S4096x4096_S4x2048x4096_2_1_01_0_n_n.lhsIdx_val_of_single rfl i q

theorem rhs_0 (i : S4x2048x4096.Idx) (q : dot_S4x2048x4096_S4096x4096_S4x2048x4096_2_1_01_0_n_n.contr.Idx) :
    (dot_S4x2048x4096_S4096x4096_S4x2048x4096_2_1_01_0_n_n.rhsIdx i q 0).val = (i 2).val := by
  unfold DotDims.rhsIdx
  rw [dif_neg (show ¬(0 : Fin S4096x4096.rank) ∈ dot_S4x2048x4096_S4096x4096_S4x2048x4096_2_1_01_0_n_n.rhsBatch by decide), dif_pos (show (0 : Fin S4096x4096.rank) ∈ dot_S4x2048x4096_S4096x4096_S4x2048x4096_2_1_01_0_n_n.rhsNonContracting by decide)]
  rfl

theorem rhs_1 (i : S4x2048x4096.Idx) (q : dot_S4x2048x4096_S4096x4096_S4x2048x4096_2_1_01_0_n_n.contr.Idx) :
    (dot_S4x2048x4096_S4096x4096_S4x2048x4096_2_1_01_0_n_n.rhsIdx i q 1).val = (q ⟨0, by decide⟩).val :=
  dot_S4x2048x4096_S4096x4096_S4x2048x4096_2_1_01_0_n_n.rhsIdx_val_of_single rfl i q

/-- The contraction at (b, s, o): the sum over i of input (b, s, i) times weight (o, i). -/
theorem contraction_apply (x : FVec Ideal S4x2048x4096 .f32) (w : FVec Ideal S4096x4096 .f32) (b : Fin 4) (s : Fin 2048) (o : Fin 4096) :
    Host.dotGeneral dot_S4x2048x4096_S4096x4096_S4x2048x4096_2_1_01_0_n_n none x w (ix3 b s o) = ∑ i : Fin 4096, x (ix3 b s i) * w (ix2 o i) := by
  simp only [Host.dotGeneral]
  rw [Ideal.dotGeneral_apply, ← Equiv.sum_comp (contrEquiv1 dot_S4x2048x4096_S4096x4096_S4x2048x4096_2_1_01_0_n_n 4096 rfl rfl).symm]
  refine Finset.sum_congr rfl fun k _ => ?_
  have hk := contrEquiv1_symm_val dot_S4x2048x4096_S4096x4096_S4x2048x4096_2_1_01_0_n_n 4096 rfl rfl k
  have el : dot_S4x2048x4096_S4096x4096_S4x2048x4096_2_1_01_0_n_n.lhsIdx (ix3 b s o) ((contrEquiv1 dot_S4x2048x4096_S4096x4096_S4x2048x4096_2_1_01_0_n_n 4096 rfl rfl).symm k) = ix3 b s k := funext fun a => Fin.ext (by
    match a with
    | ⟨0, _⟩ => exact lhs_0 _ _
    | ⟨1, _⟩ => exact lhs_1 _ _
    | ⟨2, _⟩ => exact (lhs_2 _ _).trans hk)
  have er : dot_S4x2048x4096_S4096x4096_S4x2048x4096_2_1_01_0_n_n.rhsIdx (ix3 b s o) ((contrEquiv1 dot_S4x2048x4096_S4096x4096_S4x2048x4096_2_1_01_0_n_n 4096 rfl rfl).symm k) = ix2 o k := funext fun a => Fin.ext (by
    match a with
    | ⟨0, _⟩ => exact rhs_0 _ _
    | ⟨1, _⟩ => exact (rhs_1 _ _).trans hk)
  rw [el, er]

/-- The bias laid along the last axis: at (b, s, o) it is the bias at o. -/
theorem bias_apply (v : FVec Ideal S4096 .f32) (b : Fin 4) (s : Fin 2048) (o : Fin 4096) :
    broadcastInDim S4x2048x4096 ![0, 1, 2] bcast_S1x1x4096_S4x2048x4096_0_1_2
        (broadcastInDim S1x1x4096 ![2] bcast_S4096_S1x1x4096_2 v) (ix3 b s o) = v (ix1 o) := by
  rw [broadcastInDim_apply _ _ _ (ix3 b s o) (ix3 (0 : Fin 1) (0 : Fin 1) o) (fun a => by
    match a with
    | ⟨0, _⟩ => rfl
    | ⟨1, _⟩ => rfl
    | ⟨2, _⟩ => rfl)]
  rw [broadcastInDim_apply _ _ _ (ix3 (0 : Fin 1) (0 : Fin 1) o) (ix1 o) (fun a => by
    match a with
    | ⟨0, _⟩ => rfl)]

/-- The linear layer at (b, s, o). -/
theorem linear_apply (x : FVec Ideal S4x2048x4096 .f32) (w : FVec Ideal S4096x4096 .f32) (v : FVec Ideal S4096 .f32)
    (b : Fin 4) (s : Fin 2048) (o : Fin 4096) :
    linear (F := Ideal) x w v (ix3 b s o) = (∑ i : Fin 4096, x (ix3 b s i) * w (ix2 o i)) + v (ix1 o) := by
  unfold linear
  show Host.dotGeneral dot_S4x2048x4096_S4096x4096_S4x2048x4096_2_1_01_0_n_n none x w (ix3 b s o)
      + broadcastInDim S4x2048x4096 ![0, 1, 2] bcast_S1x1x4096_S4x2048x4096_0_1_2
          (broadcastInDim S1x1x4096 ![2] bcast_S4096_S1x1x4096_2 v) (ix3 b s o) = _
  rw [contraction_apply, bias_apply]

end Cert.ReferenceIdeal.RefValue

end
-- ==== Proof.Bridge.lean ====
/-
  The two programs compute one function. The kernel's result at (b, s, o) is entry (b·2048 + s, o) of the
  region's [8192, 4096] result (the two layouts share the row-major position), that is the sum over the 4096
  input features i of the input at row b·2048 + s of its [8192, 4096] layout, which is the input at (b, s, i),
  times the dequantized weight at (o, i), plus the bias at o. The reference's linear layer at (b, s, o) is the
  same sum over the same weight matrix: both programs build it by the same operations from the same table.
-/
import proofs.«113631_j81003083203670_1_alg».proof.Proof.KRun
import proofs.«113631_j81003083203670_1_alg».proof.Proof.RefValue

set_option maxRecDepth 16384

noncomputable section

open scoped BigOperators
open Idealize.ShloMosaic Idealize.ShloMosaic.TcCoe Idealize.SL.Sem Idealize.ShloMosaic.ValueIdx

namespace Cert.Proof.Bridge

/-- The dequantized weight is the same matrix in both programs. -/
theorem weight_eq (idx : (⟨Cert.KernelIdeal.S4096x256x16, .i32⟩ : BufTy).Contents (Elt Ideal)) (sc : (⟨Cert.KernelIdeal.S4096x256, .f32⟩ : BufTy).Contents (Elt Ideal)) :
    Cert.KernelIdeal.KRun.weight (F := Ideal) idx sc = Cert.ReferenceIdeal.RefRun.weight (F := Ideal) idx sc := rfl

/-- Row b·2048 + s of the [8192, 4096] layout. -/
def row (b : Fin 4) (s : Fin 2048) : Fin 8192 := ⟨b.val * 2048 + s.val, by have := b.isLt; have := s.isLt; omega⟩

variable (m : (ℓ : Loc Cert.KernelIdeal.nD Cert.KernelIdeal.τ Cert.KernelIdeal.sig) → Buf (Elt Ideal) ℓ)

/-- The kernel program's argument arrays, and the weight matrix it builds from two of them. -/
abbrev input (c : Dev Cert.KernelIdeal.nD) : FVec Ideal Cert.KernelIdeal.S4x2048x4096 .f32 := (m ((c.tc : Thread Cert.KernelIdeal.nD Cert.KernelIdeal.τ).loc Cert.KernelIdeal.main_arg0))
abbrev bias (c : Dev Cert.KernelIdeal.nD) : FVec Ideal Cert.KernelIdeal.S4096 .f32 := (m ((c.tc : Thread Cert.KernelIdeal.nD Cert.KernelIdeal.τ).loc Cert.KernelIdeal.main_arg3))
abbrev wmat (c : Dev Cert.KernelIdeal.nD) : FVec Ideal Cert.KernelIdeal.S4096x4096 .f32 :=
  Cert.KernelIdeal.KRun.weight (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2))

/-- The input as the region finds it, at row b·2048 + s: the argument at (b, s, ·). -/
theorem input_apply (c : Dev Cert.KernelIdeal.nD) (b : Fin 4) (s : Fin 2048) (i : Fin 4096) :
    (Cert.KernelIdeal.KValue.xarr m c (ix2 (row b s) i) : EReal) = input m c (ix3 b s i) := by
  rw [Cert.KernelIdeal.KRun.xarr_eq]
  exact shapeCast_apply (input m c) _ (ix2 (row b s) i) (ix3 b s i) (by
    rw [Shape.rowMajor_val_two, Shape.rowMajor_val_three]
    rfl)

/-- The weight as the region finds it is the weight matrix. -/
theorem wmat_apply (c : Dev Cert.KernelIdeal.nD) (o i : Fin 4096) :
    (Cert.KernelIdeal.KValue.warr m c (ix2 o i) : EReal) = wmat m c (ix2 o i) := by
  rw [Cert.KernelIdeal.KRun.warr_eq]
  rfl

/-- The kernel's result at (b, s, o). -/
theorem result_apply (c : Dev Cert.KernelIdeal.nD) (b : Fin 4) (s : Fin 2048) (o : Fin 4096) :
    Cert.KernelIdeal.KRun.result m c (ix3 b s o)
      = (∑ i : Fin 4096, input m c (ix3 b s i) * wmat m c (ix2 o i)) + bias m c (ix1 o) := by
  unfold Cert.KernelIdeal.KRun.result
  rw [shapeCast_apply _ _ (ix3 b s o) (ix2 (row b s) o) (by
    rw [Shape.rowMajor_val_two, Shape.rowMajor_val_three]
    rfl)]
  show Cert.KernelIdeal.KValue.entry m c (row b s) o = _
  unfold Cert.KernelIdeal.KValue.entry
  rw [Cert.KernelIdeal.KRun.barr_eq]
  refine congrArg (· + bias m c (ix1 o)) (Finset.sum_congr rfl fun i _ => ?_)
  exact congrArg₂ (fun (u v : EReal) => u * v) (input_apply m c b s i) (wmat_apply m c o i)

/-- The kernel's result is the reference's linear layer over the same dequantized weight. -/
theorem result_eq (c : Dev Cert.KernelIdeal.nD) :
    Cert.KernelIdeal.KRun.result m c
      = Cert.ReferenceIdeal.RefRun.linear (F := Ideal) (m ((c.tc : Thread Cert.KernelIdeal.nD Cert.KernelIdeal.τ).loc Cert.KernelIdeal.main_arg0))
          (Cert.ReferenceIdeal.RefRun.weight (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (m ((c.tc : Thread Cert.KernelIdeal.nD Cert.KernelIdeal.τ).loc Cert.KernelIdeal.main_arg3)) := by
  funext j
  obtain ⟨b, s, o, rfl⟩ : ∃ (b : Fin 4) (s : Fin 2048) (o : Fin 4096), j = ix3 b s o := ⟨j 0, j 1, j 2, eq_ix3 j⟩
  rw [result_apply]
  exact (Cert.ReferenceIdeal.RefValue.linear_apply (input m c) (wmat m c) (bias m c) b s o).symm

end Cert.Proof.Bridge

end
-- ==== Proof.lean ====
/-
  A linear layer over a block-quantized weight: y = x · Wᵀ + b, with W[o, 16·n + j] = table[clip(index[o, n, j])] · scale[o, n].
  Both programs build W on the host by the same operations. The reference contracts x with W in one step. The
  kernel lays x out as [8192, 4096] and walks a (4, 4, 8) grid of [2048, 1024] output blocks, the last axis over
  eight blocks of 512 of the contracted axis: an accumulator is reset at the first of them, takes one block
  product at each, and at the last the output block is written as the accumulator plus the bias. On the
  extended reals a change of float format is the identity and a sum over 4096 entries is the sum of its eight
  blocks of 512 in any order, so the two results agree entry by entry. The value table and the weight matrix
  are never opened: they are one shared term.

  Proof/BlockSum.lean   the row of 4096 as eight blocks of 512
  Proof/RefRun.lean     the reference's operations and its run: the result as one term of the arguments
  Proof/RefValue.lean   that term at an entry
  Proof/KPieces.lean    what one run of the kernel body leaves, case by case, as the body's stored values
  Proof/KPayload.lean   those values at an entry
  Proof/KValue.lean     the accumulator along the contracted axis; the blocks written back tile the result array
  Proof/KRun.lean       the host operations around the region; the kernel program's run
  Proof/Bridge.lean     the two results are one function
-/
import proofs.«113631_j81003083203670_1_alg».proof.Defs
import proofs.«113631_j81003083203670_1_alg».proof.Proof.Gen.Kernel
import proofs.«113631_j81003083203670_1_alg».proof.Proof.Gen.Kernel.Frame
import proofs.«113631_j81003083203670_1_alg».proof.Proof.Gen.KernelIdeal
import proofs.«113631_j81003083203670_1_alg».proof.Proof.Gen.KernelIdeal.Frame
import proofs.«113631_j81003083203670_1_alg».proof.Proof.Gen.ReferenceIdeal
import proofs.«113631_j81003083203670_1_alg».proof.Proof.Gen.Pre_finite_inputs
import proofs.«113631_j81003083203670_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The ideal pass rewrote nothing. -/
theorem preserves : Cert.preserves_Kernel_KernelIdeal := trivial

/-- From arguments that agree, the kernel's result array and the reference's end at one function of them. -/
theorem algebraic : Cert.algebraic_KernelIdeal_ReferenceIdeal := by
  intro m ρ m' ρ' _ hagree
  refine ⟨fun c => Cert.KernelIdeal.KRun.result m c, Cert.KernelIdeal.KRun.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]
  exact (Bridge.result_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
